-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S2x128 .f32) (main_arg9 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S2x128 .f32) (main_arg9 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S800000x128 : Shape := ⟨2, ![800000, 128]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 60
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2x128, .f32⟩
  | .local _ .vmem, ⟨17, _⟩ => ⟨S2, .f32⟩
  | .local _ .vmem, ⟨18, _⟩ => ⟨S5000x2, .f32⟩
  | .local _ .vmem, ⟨19, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S128x64_S5000x128_1_1_0_0_n_n_wf : DotDims.WF S5000x64 S128x64 S5000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  dot_S5000x128_S2x128_S5000x2_1_1_0_0_n_n_wf : DotDims.WF S5000x128 S2x128 S5000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S50000x2.size a
  hwx1_7 : ∀ i : grid1.Coords, EltTy.bits .f32 = 32 ∨ (Rect.block (s := S50000x2) S5000x2.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S128x64_S5000x128_1_1_0_0_n_n : DotDims S5000x64 S128x64 S5000x128 where
  lhsContracting := [1]
  rhsContracting := [1]
  lhsNonContracting := [0]
  rhsNonContracting := [0]
  lhsBatch := []
  rhsBatch := []
  wf := dot_S5000x64_S128x64_S5000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S2x128_S5000x2_1_1_0_0_n_n : DotDims S5000x128 S2x128 S5000x2 where
  lhsContracting := [1]
  rhsContracting := [1]
  lhsNonContracting := [0]
  rhsNonContracting := [0]
  lhsBatch := []
  rhsBatch := []
  wf := dot_S5000x128_S2x128_S5000x2_1_1_0_0_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S2x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S64x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S64x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S128x2, .f32⟩
  | .hbm, ⟨81, _⟩ => ⟨S50000x2, .f32⟩
  | .hbm, ⟨82, _⟩ => ⟨S1x2, .f32⟩
  | .hbm, ⟨83, _⟩ => ⟨S50000x2, .f32⟩
  | .hbm, ⟨84, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.LibDotNT.lean ====
/-
  A product of a matrix with a transposed matrix, read at an entry as the textbook sum.

  A product of an `M × K` matrix `A` by an `N × K` matrix `B` whose dimension numbers contract the LAST axis of both
  operands, keep the left rows and the right rows in that order, and have no batch axis: the product `A · Bᵀ`. At
  result entry `(i, j)` and contraction position `k` the left operand is read at `(i, k)` and the right at `(j, k)`,
  and the one-axis contraction index set is its coordinate range `Fin K`; so the sum over the contraction index is
  `∑ q : Fin K, A (i, q) * B (j, q)`. Stated for ANY dimension-number record with those lists and for operands of any
  two float formats, at the extended reals, for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat} (d : DotDims (⟨2, ![M, K]⟩ : Shape) (⟨2, ![N, K]⟩ : Shape) (⟨2, ![M, N]⟩ : Shape))
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the number of columns of both operands. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's row is the result's column. -/
theorem rhs_row (i : Fin M) (j : Fin N) (k : d.contr.Idx) : (d.rhsIdx (ix2 i j) k 0).val = j.val := by
  obtain ⟨lc, rc, ln, rn, lb, rb, wf⟩ := d
  subst hlc hrc hln hrn hlb hrb
  rfl

/-- THE CONTRACTION'S SUM OF `A · Bᵀ` at entry `(i, j)`: at contraction position `k` with coordinate `q` the left
    operand is read at `(i, q)` and the right at `(j, q)`, and the positions correspond one to one to the coordinates
    `q : Fin K`, so the sum is re-indexed by them. -/
theorem nt_sum (l : (⟨2, ![M, K]⟩ : Shape).Idx → EReal) (r : (⟨2, ![N, K]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 j q) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 j (contrEquiv1 d K h1 hK k) := by
    intro k
    funext a
    refine Fin.ext ?_
    match a with
    | ⟨0, _⟩ => exact rhs_row d hlc hrc hln hrn hlb hrb i j k
    | ⟨1, _⟩ => exact d.rhsIdx_val_of_single hrc (ix2 i j) k
  calc (∑ k : d.contr.Idx, l (d.lhsIdx (ix2 i j) k) * r (d.rhsIdx (ix2 i j) k))
      = ∑ k : d.contr.Idx, (fun q : Fin K => l (ix2 i q) * r (ix2 j q)) (contrEquiv1 d K h1 hK k) :=
        Finset.sum_congr rfl fun k _ => by rw [hl k, hr k]
    _ = ∑ q : Fin K, l (ix2 i q) * r (ix2 j q) :=
        Equiv.sum_comp (contrEquiv1 d K h1 hK) fun q : Fin K => l (ix2 i q) * r (ix2 j q)

/-- A block product `A · Bᵀ` into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    matmul d prec l r (constant (⟨2, ![M, N]⟩ : Shape) .f32 0x00000000#32) (ix2 i j)
      = ∑ q : Fin K, l (ix2 i q) * r (ix2 j q) := by
  show FloatOps.matmul d prec l r (constant (⟨2, ![M, N]⟩ : Shape) .f32 0x00000000#32) (ix2 i j) = _
  rw [Ideal.matmul_constant_zero_apply]
  exact nt_sum d hlc hrc hln hrn hlb hrb l r i j

/-- The host's product `A · Bᵀ`, read at `(i, j)`, is that sum. -/
theorem hostDot_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    Host.dotGeneral d prec l r (ix2 i j) = ∑ q : Fin K, l (ix2 i q) * r (ix2 j q) := by
  simp only [Host.dotGeneral]
  rw [Ideal.dotGeneral_apply]
  exact nt_sum d hlc hrc hln hrn hlb hrb l r i j

end Cert.LibDotNT

end
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.SageSpec.lean ====
/-
  One GraphSAGE layer and the linear head, entry by entry, at the extended reals.

  A layer takes the aggregated neighbour features `agg` and the node features `x` (both `M × K`), two weight matrices
  `wl`, `wr` (both `N × K`) and a bias `bl` (length `N`), and returns the `M × N` matrix whose entry `(i, j)` is
  `max ((agg · wlᵀ) (i, j) + (x · wrᵀ) (i, j) + bl j) 0`. The head is `(h · wᵀ) (i, j) + b j`.

  Two spellings of a layer are shown to be this function. The blockwise one multiplies by the weight matrices as they
  are stored, contracting the last axis of both operands, adds the two products first and the bias (a vector laid out as
  one row and repeated down the rows) last. The whole-array one transposes each weight matrix, multiplies rows by
  columns, and adds the bias to the first product before the second product. They differ in the order of a three-term
  sum, which the extended reals' addition — commutative and associative, infinities included — does not see. A change of
  float format is the identity on extended reals, so the narrowing of the products' operands leaves no trace.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«121662_j40089224741075_1_alg».proof.Proof.LibDotNT
import proofs.«121662_j40089224741075_1_alg».proof.Proof.LibPlainDotSum

noncomputable section

open scoped BigOperators

namespace Cert.Sage

open Idealize.ShloMosaic Idealize.ShloMosaic.ValueIdx

variable {M K N : Nat}

/-- Entry `(i, j)` of `a · wᵀ`: row `i` of `a` against row `j` of `w`. -/
def rowDot (a : FVec Ideal (⟨2, ![M, K]⟩ : Shape) .f32) (w : FVec Ideal (⟨2, ![N, K]⟩ : Shape) .f32) (i : Fin M) (j : Fin N) : EReal :=
  ∑ q : Fin K, a (ix2 i q) * w (ix2 j q)

/-- A layer's entry `(i, j)`. -/
def layerAt (agg x : FVec Ideal (⟨2, ![M, K]⟩ : Shape) .f32) (wl : FVec Ideal (⟨2, ![N, K]⟩ : Shape) .f32)
    (bl : FVec Ideal (⟨1, ![N]⟩ : Shape) .f32) (wr : FVec Ideal (⟨2, ![N, K]⟩ : Shape) .f32) (i : Fin M) (j : Fin N) : EReal :=
  max (rowDot agg wl i j + rowDot x wr i j + bl (ix1 j)) (Ideal.ofBits .f32 0x00000000#32)

/-- A layer: `max (agg · wlᵀ + x · wrᵀ + bl) 0`, the bias added to every row. -/
def layer (agg x : FVec Ideal (⟨2, ![M, K]⟩ : Shape) .f32) (wl : FVec Ideal (⟨2, ![N, K]⟩ : Shape) .f32)
    (bl : FVec Ideal (⟨1, ![N]⟩ : Shape) .f32) (wr : FVec Ideal (⟨2, ![N, K]⟩ : Shape) .f32) :
    FVec Ideal (⟨2, ![M, N]⟩ : Shape) .f32 :=
  fun y => layerAt agg x wl bl wr (y 0) (y 1)

/-- The head's entry `(i, j)`. -/
def headAt (h : FVec Ideal (⟨2, ![M, K]⟩ : Shape) .f32) (w : FVec Ideal (⟨2, ![N, K]⟩ : Shape) .f32)
    (b : FVec Ideal (⟨1, ![N]⟩ : Shape) .f32) (i : Fin M) (j : Fin N) : EReal :=
  rowDot h w i j + b (ix1 j)

/-- The linear head: `h · wᵀ + b`, the bias added to every row. -/
def head (h : FVec Ideal (⟨2, ![M, K]⟩ : Shape) .f32) (w : FVec Ideal (⟨2, ![N, K]⟩ : Shape) .f32)
    (b : FVec Ideal (⟨1, ![N]⟩ : Shape) .f32) : FVec Ideal (⟨2, ![M, N]⟩ : Shape) .f32 :=
  fun y => headAt h w b (y 0) (y 1)

theorem layer_apply (agg x : FVec Ideal (⟨2, ![M, K]⟩ : Shape) .f32) (wl : FVec Ideal (⟨2, ![N, K]⟩ : Shape) .f32)
    (bl : FVec Ideal (⟨1, ![N]⟩ : Shape) .f32) (wr : FVec Ideal (⟨2, ![N, K]⟩ : Shape) .f32) (i : Fin M) (j : Fin N) :
    layer agg x wl bl wr (ix2 i j) = layerAt agg x wl bl wr i j := rfl

theorem head_apply (h : FVec Ideal (⟨2, ![M, K]⟩ : Shape) .f32) (w : FVec Ideal (⟨2, ![N, K]⟩ : Shape) .f32)
    (b : FVec Ideal (⟨1, ![N]⟩ : Shape) .f32) (i : Fin M) (j : Fin N) :
    head h w b (ix2 i j) = headAt h w b i j := rfl

/-- A layer's entry depends on one row of each feature matrix, one row of each weight matrix and one bias entry: two
    layers over different row ranges agree at a pair of rows where those agree. -/
theorem layerAt_congr {M' : Nat} (agg x : FVec Ideal (⟨2, ![M, K]⟩ : Shape) .f32) (agg' x' : FVec Ideal (⟨2, ![M', K]⟩ : Shape) .f32)
    (wl wr wl' wr' : FVec Ideal (⟨2, ![N, K]⟩ : Shape) .f32) (bl bl' : FVec Ideal (⟨1, ![N]⟩ : Shape) .f32)
    (i : Fin M) (i' : Fin M') (j : Fin N)
    (hagg : ∀ q : Fin K, agg (ix2 i q) = agg' (ix2 i' q)) (hx : ∀ q : Fin K, x (ix2 i q) = x' (ix2 i' q))
    (hwl : ∀ q : Fin K, wl (ix2 j q) = wl' (ix2 j q)) (hwr : ∀ q : Fin K, wr (ix2 j q) = wr' (ix2 j q))
    (hbl : bl (ix1 j) = bl' (ix1 j)) :
    layerAt agg x wl bl wr i j = layerAt agg' x' wl' bl' wr' i' j := by
  unfold layerAt rowDot
  have h1 : (∑ q : Fin K, agg (ix2 i q) * wl (ix2 j q)) = ∑ q : Fin K, agg' (ix2 i' q) * wl' (ix2 j q) :=
    Finset.sum_congr rfl fun q _ => by rw [hagg q, hwl q]
  have h2 : (∑ q : Fin K, x (ix2 i q) * wr (ix2 j q)) = ∑ q : Fin K, x' (ix2 i' q) * wr' (ix2 j q) :=
    Finset.sum_congr rfl fun q _ => by rw [hx q, hwr q]
  rw [h1, h2, hbl]

/-- The head's entry likewise depends on one row of the features, one row of the weights and one bias entry. -/
theorem headAt_congr {M' : Nat} (h : FVec Ideal (⟨2, ![M, K]⟩ : Shape) .f32) (h' : FVec Ideal (⟨2, ![M', K]⟩ : Shape) .f32)
    (w w' : FVec Ideal (⟨2, ![N, K]⟩ : Shape) .f32) (b b' : FVec Ideal (⟨1, ![N]⟩ : Shape) .f32)
    (i : Fin M) (i' : Fin M') (j : Fin N)
    (hh : ∀ q : Fin K, h (ix2 i q) = h' (ix2 i' q)) (hw : ∀ q : Fin K, w (ix2 j q) = w' (ix2 j q))
    (hb : b (ix1 j) = b' (ix1 j)) :
    headAt h w b i j = headAt h' w' b' i' j := by
  unfold headAt rowDot
  have h1 : (∑ q : Fin K, h (ix2 i q) * w (ix2 j q)) = ∑ q : Fin K, h' (ix2 i' q) * w' (ix2 j q) :=
    Finset.sum_congr rfl fun q _ => by rw [hh q, hw q]
  rw [h1, hb]

/-! ## The blockwise spelling: products against the stored weight matrices, the bias as a repeated row -/

section Blockwise

variable (d : DotDims (⟨2, ![M, K]⟩ : Shape) (⟨2, ![N, K]⟩ : Shape) (⟨2, ![M, N]⟩ : Shape))
  (hlc : d.lhsContracting = [1]) (hrc : d.rhsContracting = [1]) (hln : d.lhsNonContracting = [0])
  (hrn : d.rhsNonContracting = [0]) (hlb : d.lhsBatch = []) (hrb : d.rhsBatch = [])
  (hsc : (⟨1, ![N]⟩ : Shape).ShapeCasts ⟨2, ![1, N]⟩) (hbc : (⟨2, ![1, N]⟩ : Shape).Broadcasts ⟨2, ![M, N]⟩)
  (hlt : FTy.bf16.bits < FTy.f32.bits)

include hlc hrc hln hrn hlb hrb

/-- The two products into zero accumulators, added, the bias row added last, the maximum with zero: a layer. -/
theorem blockLayer_eq (agg x : FVec Ideal (⟨2, ![M, K]⟩ : Shape) .f32) (wl wr : FVec Ideal (⟨2, ![N, K]⟩ : Shape) .f32)
    (bl : FVec Ideal (⟨1, ![N]⟩ : Shape) .f32) :
    maximumf (addf (addf (matmul d none (truncf .bf16 agg hlt) (truncf .bf16 wl hlt) (constant (⟨2, ![M, N]⟩ : Shape) .f32 0x00000000#32))
                         (matmul d none (truncf .bf16 x hlt) (truncf .bf16 wr hlt) (constant (⟨2, ![M, N]⟩ : Shape) .f32 0x00000000#32)))
                   (broadcastTo (⟨2, ![M, N]⟩ : Shape) (shapeCast (⟨2, ![1, N]⟩ : Shape) bl hsc) hbc))
             (broadcast (⟨2, ![M, N]⟩ : Shape) (Scalar.ofBits (F := Ideal) .f32 0x00000000#32))
      = layer agg x wl bl wr := by
  funext y
  obtain ⟨i, j, rfl⟩ : ∃ (i : Fin M) (j : Fin N), y = ix2 i j := ⟨y 0, y 1, eq_ix2 y⟩
  rw [maximumf_apply, addf_apply, addf_apply, Cert.LibDotNT.matmul_zero_apply d hlc hrc hln hrn hlb hrb,
    Cert.LibDotNT.matmul_zero_apply d hlc hrc hln hrn hlb hrb, broadcastTo_1b_ab_apply, shapeCast_a_1a_apply, broadcast_apply]
  rfl

/-- The product into a zero accumulator with the bias row added: the head. -/
theorem blockHead_eq (h : FVec Ideal (⟨2, ![M, K]⟩ : Shape) .f32) (w : FVec Ideal (⟨2, ![N, K]⟩ : Shape) .f32)
    (b : FVec Ideal (⟨1, ![N]⟩ : Shape) .f32) :
    addf (matmul d none (truncf .bf16 h hlt) (truncf .bf16 w hlt) (constant (⟨2, ![M, N]⟩ : Shape) .f32 0x00000000#32))
         (broadcastTo (⟨2, ![M, N]⟩ : Shape) (shapeCast (⟨2, ![1, N]⟩ : Shape) b hsc) hbc)
      = head h w b := by
  funext y
  obtain ⟨i, j, rfl⟩ : ∃ (i : Fin M) (j : Fin N), y = ix2 i j := ⟨y 0, y 1, eq_ix2 y⟩
  rw [addf_apply, Cert.LibDotNT.matmul_zero_apply d hlc hrc hln hrn hlb hrb, broadcastTo_1b_ab_apply, shapeCast_a_1a_apply]
  rfl

end Blockwise

/-! ## The whole-array spelling: products against transposed weights, the bias before the second product -/

section Whole

variable (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])
  (ht : (⟨2, ![N, K]⟩ : Shape).Transposes [1, 0] ⟨2, ![K, N]⟩)
  (hb1 : (⟨1, ![N]⟩ : Shape).BroadcastsInDim ⟨2, ![1, N]⟩ (![1] : Fin 1 → Fin 2))
  (hb2 : (⟨2, ![1, N]⟩ : Shape).BroadcastsInDim ⟨2, ![M, N]⟩ (![0, 1] : Fin 2 → Fin 2))
  (hb0 : (⟨0, ![]⟩ : Shape).BroadcastsInDim ⟨2, ![M, N]⟩ (![] : Fin 0 → Fin 2))

/-- A bias vector laid out as one row along the column axis and repeated down the rows reads, at `(i, j)`, its entry `j`. -/
theorem biasRows_apply (b : FVec Ideal (⟨1, ![N]⟩ : Shape) .f32) (i : Fin M) (j : Fin N) :
    broadcastInDim (⟨2, ![M, N]⟩ : Shape) ![0, 1] hb2 (broadcastInDim (⟨2, ![1, N]⟩ : Shape) ![1] hb1 b) (ix2 i j) = b (ix1 j) := by
  rw [broadcastInDim_apply ![0, 1] hb2 _ (ix2 i j) (ix2 (0 : Fin 1) j) (fun a => match a with
      | ⟨0, _⟩ => by show (0 : Nat) = if (1 : Nat) = 1 then 0 else i.val; rw [if_pos rfl]
      | ⟨1, _⟩ => by
          show j.val = if N = 1 then 0 else j.val
          split
          · have := j.isLt; omega
          · rfl),
    broadcastInDim_apply ![1] hb1 b (ix2 (0 : Fin 1) j) (ix1 j) (fun a => match a with
      | ⟨0, _⟩ => by
          show j.val = if N = 1 then 0 else j.val
          split
          · have := j.isLt; omega
          · rfl)]

include hlc hrc hln hrn hlb hrb

/-- The first product with the bias, then the second product, the maximum with zero: the same layer. -/
theorem wholeLayer_eq (agg x : FVec Ideal (⟨2, ![M, K]⟩ : Shape) .f32) (wl wr : FVec Ideal (⟨2, ![N, K]⟩ : Shape) .f32)
    (bl : FVec Ideal (⟨1, ![N]⟩ : Shape) .f32) :
    maximumf (addf (addf (Host.dotGeneral d none agg (transpose (⟨2, ![K, N]⟩ : Shape) [1, 0] wl ht))
                         (broadcastInDim (⟨2, ![M, N]⟩ : Shape) ![0, 1] hb2 (broadcastInDim (⟨2, ![1, N]⟩ : Shape) ![1] hb1 bl)))
                   (Host.dotGeneral d none x (transpose (⟨2, ![K, N]⟩ : Shape) [1, 0] wr ht)))
             (broadcastInDim (⟨2, ![M, N]⟩ : Shape) ![] hb0 (constant (F := Ideal) (⟨0, ![]⟩ : Shape) .f32 0x00000000#32))
      = layer agg x wl bl wr := by
  funext y
  obtain ⟨i, j, rfl⟩ : ∃ (i : Fin M) (j : Fin N), y = ix2 i j := ⟨y 0, y 1, eq_ix2 y⟩
  rw [maximumf_apply, addf_apply, addf_apply, Cert.LibPlainDotSum.hostDot_apply d hlc hrc hln hrn hlb hrb,
    Cert.LibPlainDotSum.hostDot_apply d hlc hrc hln hrn hlb hrb, biasRows_apply hb1 hb2, layer_apply]
  have hT : ∀ (w : FVec Ideal (⟨2, ![N, K]⟩ : Shape) .f32) (q : Fin K),
      transpose (⟨2, ![K, N]⟩ : Shape) [1, 0] w ht (ix2 q j) = w (ix2 j q) := fun w q => transpose_ix2_apply w ht q j
  simp only [hT]
  unfold layerAt rowDot
  rw [add_right_comm]
  rfl

/-- The product against the transposed weights plus the bias rows: the same head. -/
theorem wholeHead_eq (h : FVec Ideal (⟨2, ![M, K]⟩ : Shape) .f32) (w : FVec Ideal (⟨2, ![N, K]⟩ : Shape) .f32)
    (b : FVec Ideal (⟨1, ![N]⟩ : Shape) .f32) :
    addf (Host.dotGeneral d none h (transpose (⟨2, ![K, N]⟩ : Shape) [1, 0] w ht))
         (broadcastInDim (⟨2, ![M, N]⟩ : Shape) ![0, 1] hb2 (broadcastInDim (⟨2, ![1, N]⟩ : Shape) ![1] hb1 b))
      = head h w b := by
  funext y
  obtain ⟨i, j, rfl⟩ : ∃ (i : Fin M) (j : Fin N), y = ix2 i j := ⟨y 0, y 1, eq_ix2 y⟩
  rw [addf_apply, Cert.LibPlainDotSum.hostDot_apply d hlc hrc hln hrn hlb hrb, biasRows_apply hb1 hb2, head_apply]
  have hT : ∀ (q : Fin K), transpose (⟨2, ![K, N]⟩ : Shape) [1, 0] w ht (ix2 q j) = w (ix2 j q) :=
    fun q => transpose_ix2_apply w ht q j
  simp only [hT]
  rfl

end Whole

end Cert.Sage

end
-- ==== Proof.Region0.lean ====
/-
  The first region's output array, as one function of the arrays the region is entered with.

  The region walks ten row blocks of 5000 rows. At block `t` it reads rows `5000 t … 5000 t + 4999` of the aggregated
  features and of the node features, the two whole weight matrices and the whole bias, and writes the same rows of the
  output: a GraphSAGE layer of those row blocks. A layer's entry `(i, j)` depends on row `i` of the two feature
  matrices only, so the layer of the row blocks is the row block of the layer of the whole arrays; the ten blocks
  cover the output's 50000 rows, so the output array ends as the layer of the whole arrays.
-/
import proofs.«121662_j40089224741075_1_alg».proof.Proof.Gen.KernelIdeal.Frame
import proofs.«121662_j40089224741075_1_alg».proof.Proof.SageSpec

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the output array ends holding: the layer of the arrays the region is entered with. -/
def G (c : Dev nD) : FVec Ideal S50000x128 .f32 :=
  Cert.Sage.layer (V c main_v24) (V c main_arg0) (V c main_arg2) (V c main_arg3) (V c main_arg4)

/-- The body's payload is a layer of its loaded blocks. -/
theorem pay_eq (x0 x1 : Vec Ideal S5000x64 .f32) (x2 x4 : Vec Ideal S128x64 .f32) (x3 : Vec Ideal S128 .f32) :
    k0_pay1 x0 x1 x2 x4 x3 = Cert.Sage.layer x0 x1 x2 x3 x4 := by
  unfold k0_pay1
  rw [shapeCast_self]
  exact Cert.Sage.blockLayer_eq dot_S5000x64_S128x64_S5000x128_1_1_0_0_n_n rfl rfl rfl rfl rfl rfl
    shapeCasts_S128_S1x128 broadcasts_S1x128_S5000x128 bitsLt_bf16_f32 x0 x1 x2 x4 x3

/-- The printed index maps over the grid: the two feature windows and the output window sit at row block `t`, column
    block 0; the weight and bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of block `t` is row `5000 t + r` of the array. -/
abbrev row (t : Fin cfg0.N) (r : Fin 5000) : Fin 50000 :=
  ⟨t.val * 5000 + r.val, by have ht : t.val < 10 := t.isLt; have := r.isLt; omega⟩

/-- The aggregated features' block at point `t` holds rows `5000 t …` of the array. -/
theorem read_agg (c : Dev nD) (t : Fin cfg0.N) (r : Fin 5000) (q : Fin 64) :
    iblk0 V c 0 t (ix2 r q) = V c main_v24 (ix2 (row t r) q) := by
  obtain ⟨e0, e1, -⟩ := idx_facts t
  show V c main_v24 (((cfg0.win 0).blk t).view.emb (ix2 r q)) = _
  refine congrArg (V c main_v24) ?_
  funext a; apply Fin.ext
  match a with
  | ⟨0, _⟩ => show win0_0.index t (0 : Fin 2) * 5000 + 1 * r.val = t.val * 5000 + r.val; omega
  | ⟨1, _⟩ => show win0_0.index t (1 : Fin 2) * 64 + 1 * q.val = q.val; omega

/-- The node features' block at point `t` holds rows `5000 t …` of the array. -/
theorem read_x (c : Dev nD) (t : Fin cfg0.N) (r : Fin 5000) (q : Fin 64) :
    iblk0 V c 1 t (ix2 r q) = V c main_arg0 (ix2 (row t r) q) := by
  obtain ⟨-, -, e0, e1, -⟩ := idx_facts t
  show V c main_arg0 (((cfg0.win 1).blk t).view.emb (ix2 r q)) = _
  refine congrArg (V c main_arg0) ?_
  funext a; apply Fin.ext
  match a with
  | ⟨0, _⟩ => show win0_1.index t (0 : Fin 2) * 5000 + 1 * r.val = t.val * 5000 + r.val; omega
  | ⟨1, _⟩ => show win0_1.index t (1 : Fin 2) * 64 + 1 * q.val = q.val; omega

/-- The first weight matrix's block is the whole matrix at every point. -/
theorem read_wl (c : Dev nD) (t : Fin cfg0.N) (j : Fin 128) (q : Fin 64) :
    iblk0 V c 2 t (ix2 j q) = V c main_arg2 (ix2 j q) := by
  obtain ⟨-, -, -, -, e0, e1, -⟩ := idx_facts t
  show V c main_arg2 (((cfg0.win 2).blk t).view.emb (ix2 j q)) = _
  refine congrArg (V c main_arg2) ?_
  funext a; apply Fin.ext
  match a with
  | ⟨0, _⟩ => show win0_2.index t (0 : Fin 2) * 128 + 1 * j.val = j.val; omega
  | ⟨1, _⟩ => show win0_2.index t (1 : Fin 2) * 64 + 1 * q.val = q.val; omega

/-- The bias block is the whole bias at every point. -/
theorem read_bl (c : Dev nD) (t : Fin cfg0.N) (j : Fin 128) :
    iblk0 V c 3 t (ix1 j) = V c main_arg3 (ix1 j) := by
  obtain ⟨-, -, -, -, -, -, e0, -⟩ := idx_facts t
  show V c main_arg3 (((cfg0.win 3).blk t).view.emb (ix1 j)) = _
  refine congrArg (V c main_arg3) ?_
  funext a; apply Fin.ext
  match a with
  | ⟨0, _⟩ => show win0_3.index t (0 : Fin 1) * 128 + 1 * j.val = j.val; omega

/-- The second weight matrix's block is the whole matrix at every point. -/
theorem read_wr (c : Dev nD) (t : Fin cfg0.N) (j : Fin 128) (q : Fin 64) :
    iblk0 V c 4 t (ix2 j q) = V c main_arg4 (ix2 j q) := by
  obtain ⟨-, -, -, -, -, -, -, e0, e1, -⟩ := idx_facts t
  show V c main_arg4 (((cfg0.win 4).blk t).view.emb (ix2 j q)) = _
  refine congrArg (V c main_arg4) ?_
  funext a; apply Fin.ext
  match a with
  | ⟨0, _⟩ => show win0_4.index t (0 : Fin 2) * 128 + 1 * j.val = j.val; omega
  | ⟨1, _⟩ => show win0_4.index t (1 : Fin 2) * 64 + 1 * q.val = q.val; omega

/-- Entry `(r, j)` of the output block at point `t` is entry `(5000 t + r, j)` of the array. -/
theorem emb_out (t : Fin cfg0.N) (r : Fin 5000) (j : Fin 128) :
    ((cfg0.win 5).blk t).view.emb (ix2 r j) = ix2 (row t r) j := by
  obtain ⟨-, -, -, -, -, -, -, -, -, e0, e1⟩ := idx_facts t
  funext a; apply Fin.ext
  match a with
  | ⟨0, _⟩ => show win0_5.index t (0 : Fin 2) * 5000 + 1 * r.val = t.val * 5000 + r.val; omega
  | ⟨1, _⟩ => show win0_5.index t (1 : Fin 2) * 128 + 1 * j.val = j.val; omega

/-- WHAT POINT `t` WRITES BACK is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S128x64) hz2, View.ld_unit_zero (S := S128) hz1]
  rw [pay_eq]
  funext y
  obtain ⟨r, j, rfl⟩ : ∃ (r : Fin 5000) (j : Fin 128), y = ix2 r j := ⟨y 0, y 1, eq_ix2 y⟩
  show Cert.Sage.layer (iblk0 V c 0 t) (iblk0 V c 1 t) (iblk0 V c 2 t) (iblk0 V c 3 t) (iblk0 V c 4 t) (ix2 r j)
    = G V c (((cfg0.win 5).blk t).view.emb (ix2 r j))
  rw [emb_out t r j]
  exact Cert.Sage.layerAt_congr _ _ _ _ _ _ _ _ _ _ r (row t r) j
    (fun q => read_agg V c t r q) (fun q => read_x V c t r q) (fun q => read_wl V c t j q)
    (fun q => read_wr V c t j q) (read_bl V c t j)

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Every index of the output array is in some point's block: row `i` is in block `i / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨-, -, -, -, -, -, -, -, -, e0, e1⟩ := idx_facts t
  have ht : t.val = (i 0).val / 5000 := rfl
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE OUTPUT ARRAY after the region: the layer of the arrays the region is entered with. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The second region's output array, as one function of the arrays the region is entered with.

  The region walks ten row blocks of 5000 rows. At block `t` it reads rows `5000 t … 5000 t + 4999` of the aggregated
  hidden features and of the hidden features, the two whole weight matrices and bias of the second layer, the whole
  weight matrix and bias of the head, and writes the same rows of the output: the head of a GraphSAGE layer of those
  row blocks. An entry of the head depends on one row of the layer, and that row on the same row of the two feature
  matrices, so the blocks' value is the row block of the whole arrays' value; the ten blocks cover the output's 50000
  rows, so the output array ends as the head of the layer of the whole arrays.
-/
import proofs.«121662_j40089224741075_1_alg».proof.Proof.Gen.KernelIdeal.Frame
import proofs.«121662_j40089224741075_1_alg».proof.Proof.SageSpec

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the output array ends holding: the head of the layer of the arrays the region is entered with. -/
def G (c : Dev nD) : FVec Ideal S50000x2 .f32 :=
  Cert.Sage.head (Cert.Sage.layer (V c main_v38) (V c main_v25) (V c main_arg5) (V c main_arg6) (V c main_arg7))
    (V c main_arg8) (V c main_arg9)

/-- The body's payload is the head of a layer of its loaded blocks. -/
theorem pay_eq (x0 x1 : Vec Ideal S5000x128 .f32) (x2 x4 : Vec Ideal S128x128 .f32) (x3 : Vec Ideal S128 .f32)
    (x5 : Vec Ideal S2x128 .f32) (x6 : Vec Ideal S2 .f32) :
    k1_pay1 x0 x1 x2 x4 x3 x5 x6 = Cert.Sage.head (Cert.Sage.layer x0 x1 x2 x3 x4) x5 x6 := by
  unfold k1_pay1
  dsimp only
  rw [shapeCast_self, shapeCast_self,
    Cert.Sage.blockLayer_eq dot_S5000x128_S128x128_S5000x128_1_1_0_0_n_n rfl rfl rfl rfl rfl rfl
      shapeCasts_S128_S1x128 broadcasts_S1x128_S5000x128 bitsLt_bf16_f32 x0 x1 x2 x4 x3]
  exact Cert.Sage.blockHead_eq dot_S5000x128_S2x128_S5000x2_1_1_0_0_n_n rfl rfl rfl rfl rfl rfl
    shapeCasts_S2_S1x2 broadcasts_S1x2_S5000x2 bitsLt_bf16_f32 _ x5 x6

/-- The printed index maps over the grid: the two feature windows and the output window sit at row block `t`, column
    block 0; the weight and bias windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `r` of block `t` is row `5000 t + r` of the array. -/
abbrev row (t : Fin cfg1.N) (r : Fin 5000) : Fin 50000 :=
  ⟨t.val * 5000 + r.val, by have ht : t.val < 10 := t.isLt; have := r.isLt; omega⟩

/-- The aggregated hidden features' block at point `t` holds rows `5000 t …` of the array. -/
theorem read_agg (c : Dev nD) (t : Fin cfg1.N) (r : Fin 5000) (q : Fin 128) :
    iblk1 V c 0 t (ix2 r q) = V c main_v38 (ix2 (row t r) q) := by
  obtain ⟨e0, e1, -⟩ := idx_facts t
  show V c main_v38 (((cfg1.win 0).blk t).view.emb (ix2 r q)) = _
  refine congrArg (V c main_v38) ?_
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

/-- The hidden features' block at point `t` holds rows `5000 t …` of the array. -/
theorem read_h (c : Dev nD) (t : Fin cfg1.N) (r : Fin 5000) (q : Fin 128) :
    iblk1 V c 1 t (ix2 r q) = V c main_v25 (ix2 (row t r) q) := by
  obtain ⟨-, -, e0, e1, -⟩ := idx_facts t
  show V c main_v25 (((cfg1.win 1).blk t).view.emb (ix2 r q)) = _
  refine congrArg (V c main_v25) ?_
  funext a; apply Fin.ext
  match a with
  | ⟨0, _⟩ => show win1_1.index t (0 : Fin 2) * 5000 + 1 * r.val = t.val * 5000 + r.val; omega
  | ⟨1, _⟩ => show win1_1.index t (1 : Fin 2) * 128 + 1 * q.val = q.val; omega

/-- The layer's first weight matrix's block is the whole matrix at every point. -/
theorem read_wl (c : Dev nD) (t : Fin cfg1.N) (j : Fin 128) (q : Fin 128) :
    iblk1 V c 2 t (ix2 j q) = V c main_arg5 (ix2 j q) := by
  obtain ⟨-, -, -, -, e0, e1, -⟩ := idx_facts t
  show V c main_arg5 (((cfg1.win 2).blk t).view.emb (ix2 j q)) = _
  refine congrArg (V c main_arg5) ?_
  funext a; apply Fin.ext
  match a with
  | ⟨0, _⟩ => show win1_2.index t (0 : Fin 2) * 128 + 1 * j.val = j.val; omega
  | ⟨1, _⟩ => show win1_2.index t (1 : Fin 2) * 128 + 1 * q.val = q.val; omega

/-- The layer's bias block is the whole bias at every point. -/
theorem read_bl (c : Dev nD) (t : Fin cfg1.N) (j : Fin 128) :
    iblk1 V c 3 t (ix1 j) = V c main_arg6 (ix1 j) := by
  obtain ⟨-, -, -, -, -, -, e0, -⟩ := idx_facts t
  show V c main_arg6 (((cfg1.win 3).blk t).view.emb (ix1 j)) = _
  refine congrArg (V c main_arg6) ?_
  funext a; apply Fin.ext
  match a with
  | ⟨0, _⟩ => show win1_3.index t (0 : Fin 1) * 128 + 1 * j.val = j.val; omega

/-- The layer's second weight matrix's block is the whole matrix at every point. -/
theorem read_wr (c : Dev nD) (t : Fin cfg1.N) (j : Fin 128) (q : Fin 128) :
    iblk1 V c 4 t (ix2 j q) = V c main_arg7 (ix2 j q) := by
  obtain ⟨-, -, -, -, -, -, -, e0, e1, -⟩ := idx_facts t
  show V c main_arg7 (((cfg1.win 4).blk t).view.emb (ix2 j q)) = _
  refine congrArg (V c main_arg7) ?_
  funext a; apply Fin.ext
  match a with
  | ⟨0, _⟩ => show win1_4.index t (0 : Fin 2) * 128 + 1 * j.val = j.val; omega
  | ⟨1, _⟩ => show win1_4.index t (1 : Fin 2) * 128 + 1 * q.val = q.val; omega

/-- The head's weight matrix's block is the whole matrix at every point. -/
theorem read_wfc (c : Dev nD) (t : Fin cfg1.N) (j : Fin 2) (q : Fin 128) :
    iblk1 V c 5 t (ix2 j q) = V c main_arg8 (ix2 j q) := by
  obtain ⟨-, -, -, -, -, -, -, -, -, e0, e1, -⟩ := idx_facts t
  show V c main_arg8 (((cfg1.win 5).blk t).view.emb (ix2 j q)) = _
  refine congrArg (V c main_arg8) ?_
  funext a; apply Fin.ext
  match a with
  | ⟨0, _⟩ => show win1_5.index t (0 : Fin 2) * 2 + 1 * j.val = j.val; omega
  | ⟨1, _⟩ => show win1_5.index t (1 : Fin 2) * 128 + 1 * q.val = q.val; omega

/-- The head's bias block is the whole bias at every point. -/
theorem read_bfc (c : Dev nD) (t : Fin cfg1.N) (j : Fin 2) :
    iblk1 V c 6 t (ix1 j) = V c main_arg9 (ix1 j) := by
  obtain ⟨-, -, -, -, -, -, -, -, -, -, -, e0, -⟩ := idx_facts t
  show V c main_arg9 (((cfg1.win 6).blk t).view.emb (ix1 j)) = _
  refine congrArg (V c main_arg9) ?_
  funext a; apply Fin.ext
  match a with
  | ⟨0, _⟩ => show win1_6.index t (0 : Fin 1) * 2 + 1 * j.val = j.val; omega

/-- Entry `(r, j)` of the output block at point `t` is entry `(5000 t + r, j)` of the array. -/
theorem emb_out (t : Fin cfg1.N) (r : Fin 5000) (j : Fin 2) :
    ((cfg1.win 7).blk t).view.emb (ix2 r j) = ix2 (row t r) j := by
  obtain ⟨-, -, -, -, -, -, -, -, -, -, -, -, e0, e1⟩ := idx_facts t
  funext a; apply Fin.ext
  match a with
  | ⟨0, _⟩ => show win1_7.index t (0 : Fin 2) * 5000 + 1 * r.val = t.val * 5000 + r.val; omega
  | ⟨1, _⟩ => show win1_7.index t (1 : Fin 2) * 2 + 1 * j.val = j.val; omega

/-- WHAT POINT `t` WRITES BACK is block `t` of the head of the layer of the whole arrays. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1,
    View.ld_unit_zero (S := S2x128) hz2, View.ld_unit_zero (S := S2) hz1]
  rw [pay_eq]
  funext y
  obtain ⟨r, j, rfl⟩ : ∃ (r : Fin 5000) (j : Fin 2), y = ix2 r j := ⟨y 0, y 1, eq_ix2 y⟩
  show Cert.Sage.head (Cert.Sage.layer (iblk1 V c 0 t) (iblk1 V c 1 t) (iblk1 V c 2 t) (iblk1 V c 3 t) (iblk1 V c 4 t))
      (iblk1 V c 5 t) (iblk1 V c 6 t) (ix2 r j)
    = G V c (((cfg1.win 7).blk t).view.emb (ix2 r j))
  rw [emb_out t r j]
  exact Cert.Sage.headAt_congr _ _ _ _ _ _ r (row t r) j
    (fun q => Cert.Sage.layerAt_congr _ _ _ _ _ _ _ _ _ _ r (row t r) q
      (fun q' => read_agg V c t r q') (fun q' => read_h V c t r q') (fun q' => read_wl V c t q q')
      (fun q' => read_wr V c t q q') (read_bl V c t q))
    (fun q => read_wfc V c t j q) (read_bfc V c t j)

/-- An index of the array is in point `t`'s block iff each coordinate is in the block's range on its axis. -/
theorem mem_blk (t : Fin cfg1.N) (i : S50000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v39).slice (win1_7.rect t)).set ↔ _
  rw [View.set_slice_whole, Rect.mem_set_unit]
  exact Iff.rfl

/-- Every index of the output array is in some point's block: row `i` is in block `i / 5000`. -/
theorem cover (i : S50000x2.Idx) :
    ∃ t : Fin cfg1.N, (cfg1.win 7).flush t = true ∧ i ∈ ((cfg1.win 7).blk t).view.set := by
  have hi0 : (i 0).val < 50000 := (i 0).isLt
  have hi1 : (i 1).val < 2 := (i 1).isLt
  let t : Fin cfg1.N := ⟨(i 0).val / 5000, by show (i 0).val / 5000 < 10; omega⟩
  obtain ⟨-, -, -, -, -, -, -, -, -, -, -, -, e0, e1⟩ := idx_facts t
  have ht : t.val = (i 0).val / 5000 := rfl
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 2 ≤ (i 1).val ∧ (i 1).val < win1_7.index t (1 : Fin 2) * 2 + 2
    omega

/-- THE OUTPUT ARRAY after the region: the head of the layer of the arrays the region is entered with. -/
theorem final (c : Dev nD) : (dat1 V c).arrAt 7 cfg1.N = G V c :=
  (dat1 V c).arrAt_eq_of_cover 7 (G V c) (fun t _ => flushed_eq V c t) cover

end Cert.KernelIdeal.Region1

end
-- ==== Proof.Net.lean ====
/-
  The whole network as one function of its ten arguments, at the extended reals: two GraphSAGE layers and a linear head,
  each layer fed the mean of its input over every node's in-neighbours.

  The neighbour mean is the part both programs spell with the same array operations, so it is carried here as it is
  written and never opened: the source and destination node of every edge are the two rows of the edge array (a
  negative source index wrapped by the number of nodes), every edge's source row is gathered, the gathered rows are
  summed into their destination rows, and each row is scaled by the reciprocal of its in-degree (at least one).
-/
import proofs.«121662_j40089224741075_1_alg».proof.ReferenceIdeal
import proofs.«121662_j40089224741075_1_alg».proof.Proof.Gen.ReferenceIdeal
import proofs.«121662_j40089224741075_1_alg».proof.Proof.SageSpec

noncomputable section

namespace Cert.Net

open Cert.ReferenceIdeal Cert.ReferenceIdeal.Gen Idealize.ShloMosaic

/-- The source node of every edge: the edge array's first row. -/
def srcRow (a1 : IVec S2x800000 32) : IVec S800000 32 :=
  shapeCast _ (extractStridedSlice S1x800000 ![0, 0] a1 slices_S2x800000_S1x800000_0_0) shapeCasts_S1x800000_S800000

/-- The destination node of every edge: the edge array's second row. -/
def dstRow (a1 : IVec S2x800000 32) : IVec S800000 32 :=
  shapeCast _ (extractStridedSlice S1x800000 ![1, 0] a1 slices_S2x800000_S1x800000_1_0) shapeCasts_S1x800000_S800000

/-- The reciprocal of every node's in-degree, the degree taken as at least one: a one summed into each edge's
    destination, the maximum with one, one divided by it. -/
def degInv (a1 : IVec S2x800000 32) : FVec Ideal S50000 .f32 :=
  Host.divf (F := Ideal) (broadcastInDim S50000 ![] bcast_S_S50000 (constant (F := Ideal) S_ .f32 0x3F800000#32)) (maximumf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (dstRow a1)) (broadcastInDim S800000 ![] bcast_S_S800000 (constant (F := Ideal) S_ .f32 0x3F800000#32))) (broadcastInDim S50000 ![] bcast_S_S50000 (constant (F := Ideal) S_ .f32 0x3F800000#32)))

/-- The mean over in-neighbours of the 64 input features: the edges' source rows gathered (a negative source index
    wrapped by the number of nodes), summed into their destination rows, each row times the reciprocal of its in-degree. -/
def agg64 (a0 : FVec Ideal S50000x64 .f32) (a1 : IVec S2x800000 32) : FVec Ideal S50000x64 .f32 :=
  mulf (F := Ideal) (Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 (dstRow a1)) (Host.gather gather_S50000x64_S800000x1_S800000x64_1_0_n_n_0_1_164 a0 (broadcastInDim S800000x1 ![0] bcast_S800000_S800000x1_0 (select (cmpi .slt (srcRow a1) (broadcastInDim S800000 ![] bcast_S_S800000 (constantI S_ 32 0#32))) (addi (srcRow a1) (broadcastInDim S800000 ![] bcast_S_S800000 (constantI S_ 32 50000#32))) (srcRow a1))))) (broadcastInDim S50000x64 ![0, 1] bcast_S50000x1_S50000x64_0_1 (broadcastInDim S50000x1 ![0] bcast_S50000_S50000x1_0 (degInv a1)))

/-- The same mean of the 128 hidden features. -/
def agg128 (h : FVec Ideal S50000x128 .f32) (a1 : IVec S2x800000 32) : FVec Ideal S50000x128 .f32 :=
  mulf (F := Ideal) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (dstRow a1)) (Host.gather gather_S50000x128_S800000x1_S800000x128_1_0_n_n_0_1_1128 h (broadcastInDim S800000x1 ![0] bcast_S800000_S800000x1_0 (select (cmpi .slt (srcRow a1) (broadcastInDim S800000 ![] bcast_S_S800000 (constantI S_ 32 0#32))) (addi (srcRow a1) (broadcastInDim S800000 ![] bcast_S_S800000 (constantI S_ 32 50000#32))) (srcRow a1))))) (broadcastInDim S50000x128 ![0, 1] bcast_S50000x1_S50000x128_0_1 (broadcastInDim S50000x1 ![0] bcast_S50000_S50000x1_0 (degInv a1)))

/-- The hidden features after the first layer. -/
def hidden (a0 : FVec Ideal S50000x64 .f32) (a1 : IVec S2x800000 32) (a2 : FVec Ideal S128x64 .f32) (a3 : FVec Ideal S128 .f32)
    (a4 : FVec Ideal S128x64 .f32) : FVec Ideal S50000x128 .f32 :=
  Cert.Sage.layer (agg64 a0 a1) a0 a2 a3 a4

/-- The network: layer, layer, head. -/
def net (a0 : FVec Ideal S50000x64 .f32) (a1 : IVec S2x800000 32) (a2 : FVec Ideal S128x64 .f32) (a3 : FVec Ideal S128 .f32)
    (a4 : FVec Ideal S128x64 .f32) (a5 : FVec Ideal S128x128 .f32) (a6 : FVec Ideal S128 .f32) (a7 : FVec Ideal S128x128 .f32)
    (a8 : FVec Ideal S2x128 .f32) (a9 : FVec Ideal S2 .f32) : FVec Ideal S50000x2 .f32 :=
  Cert.Sage.head (Cert.Sage.layer (agg128 (hidden a0 a1 a2 a3 a4) a1) (hidden a0 a1 a2 a3 a4) a5 a6 a7) a8 a9

end Cert.Net

end
-- ==== Proof.KernelValue.lean ====
/-
  The kernel program's result is the network of its arguments.

  The program's buffer contents are followed from the launch to the return. The first stretch of host operations
  computes the edge rows, the reciprocal in-degrees and the neighbour mean of the input features; the first region
  turns them into the hidden features (a layer of the arrays it is entered with); the second stretch computes the
  neighbour mean of the hidden features from the same edge rows and degrees; the second region leaves in the result
  buffer the head of the layer of the arrays it is entered with. Reading each boundary's contents back through the one
  before gives the network of the arguments' launch contents.
-/
import proofs.«121662_j40089224741075_1_alg».proof.Proof.KernelRun
import proofs.«121662_j40089224741075_1_alg».proof.Proof.Region0
import proofs.«121662_j40089224741075_1_alg».proof.Proof.Region1
import proofs.«121662_j40089224741075_1_alg».proof.Proof.Net
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first stretch of host operations -/

/-- The first stretch of host operations leaves argument 0 as launched. -/
theorem w1_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl

/-- The first stretch of host operations leaves argument 2 as launched. -/
theorem w1_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl

/-- The first stretch of host operations leaves argument 3 as launched. -/
theorem w1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl

/-- The first stretch of host operations leaves argument 4 as launched. -/
theorem w1_arg4 (c : Dev nD) : W1 m ρ c (Proc.devRef .tc main_arg4) = m ((c.tc : Thread nD τ).loc main_arg4) := by
  show StableHlo.after hostOps0 (W0 m ρ c) (Proc.devRef .tc main_arg4) = _
  after_results_simp <;> rfl

/-- The first stretch of host operations leaves argument 5 as launched. -/
theorem w1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl

/-- The first stretch of host operations leaves argument 6 as launched. -/
theorem w1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl

/-- The first stretch of host operations leaves argument 7 as launched. -/
theorem w1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl

/-- The first stretch of host operations leaves argument 8 as launched. -/
theorem w1_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl

/-- The first stretch of host operations leaves argument 9 as launched. -/
theorem w1_arg9 (c : Dev nD) : W1 m ρ c (Proc.devRef .tc main_arg9) = m ((c.tc : Thread nD τ).loc main_arg9) := by
  show StableHlo.after hostOps0 (W0 m ρ c) (Proc.devRef .tc main_arg9) = _
  after_results_simp <;> rfl

/-- The edges' source nodes. -/
theorem w1_src (c : Dev nD) : W1 m ρ c (Proc.devRef .tc main_v1) = Cert.Net.srcRow (m ((c.tc : Thread nD τ).loc main_arg1)) := by
  show StableHlo.after hostOps0 (W0 m ρ c) (Proc.devRef .tc main_v1) = _
  after_results_simp <;> rfl

/-- The edges' destination nodes. -/
theorem w1_dst (c : Dev nD) : W1 m ρ c (Proc.devRef .tc main_v3) = Cert.Net.dstRow (m ((c.tc : Thread nD τ).loc main_arg1)) := by
  show StableHlo.after hostOps0 (W0 m ρ c) (Proc.devRef .tc main_v3) = _
  after_results_simp <;> rfl

/-- The reciprocal in-degrees. -/
theorem w1_deg (c : Dev nD) : W1 m ρ c (Proc.devRef .tc main_v11) = Cert.Net.degInv (m ((c.tc : Thread nD τ).loc main_arg1)) := by
  show StableHlo.after hostOps0 (W0 m ρ c) (Proc.devRef .tc main_v11) = _
  after_results_simp <;> rfl

/-- The neighbour mean of the input features. -/
theorem w1_agg (c : Dev nD) : W1 m ρ c (Proc.devRef .tc main_v24) = Cert.Net.agg64 (m ((c.tc : Thread nD τ).loc main_arg0)) (m ((c.tc : Thread nD τ).loc main_arg1)) := by
  show StableHlo.after hostOps0 (W0 m ρ c) (Proc.devRef .tc main_v24) = _
  after_results_simp <;> rfl

/-! ## After the first region -/

/-- The first region's output array holds the hidden features. -/
theorem w2_hidden (c : Dev nD) :
    W2 m ρ c (Proc.devRef .tc main_v25) = Cert.Net.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show W2 m ρ c (Proc.devRef .tc main_v25) = (dat0 (V1 m ρ) c).arrAt 5 cfg0.N from W2_arr m ρ c 5,
    Cert.KernelIdeal.Region0.final (V1 m ρ) c]
  unfold Cert.KernelIdeal.Region0.G Cert.Net.hidden
  rw [show V1 m ρ c main_v24 = _ from w1_agg m ρ c, show V1 m ρ c main_arg0 = _ from w1_arg0 m ρ c,
    show V1 m ρ c main_arg2 = _ from w1_arg2 m ρ c, show V1 m ρ c main_arg3 = _ from w1_arg3 m ρ c,
    show V1 m ρ c main_arg4 = _ from w1_arg4 m ρ c]

/-! ## After the second stretch of host operations -/

/-- The second region finds argument 5 as launched: neither the first region nor a host operation writes it. -/
theorem v3_arg5 (c : Dev nD) : V3 m ρ c main_arg5 = m ((c.tc : Thread nD τ).loc main_arg5) := by
  show StableHlo.after hostOps1 (W2 m ρ c) (Proc.devRef .tc main_arg5) = _
  after_results
  rw [W2_of_ne m ρ c main_arg5 (by decide)]
  exact w1_arg5 m ρ c

/-- The second region finds argument 6 as launched: neither the first region nor a host operation writes it. -/
theorem v3_arg6 (c : Dev nD) : V3 m ρ c main_arg6 = m ((c.tc : Thread nD τ).loc main_arg6) := by
  show StableHlo.after hostOps1 (W2 m ρ c) (Proc.devRef .tc main_arg6) = _
  after_results
  rw [W2_of_ne m ρ c main_arg6 (by decide)]
  exact w1_arg6 m ρ c

/-- The second region finds argument 7 as launched: neither the first region nor a host operation writes it. -/
theorem v3_arg7 (c : Dev nD) : V3 m ρ c main_arg7 = m ((c.tc : Thread nD τ).loc main_arg7) := by
  show StableHlo.after hostOps1 (W2 m ρ c) (Proc.devRef .tc main_arg7) = _
  after_results
  rw [W2_of_ne m ρ c main_arg7 (by decide)]
  exact w1_arg7 m ρ c

/-- The second region finds argument 8 as launched: neither the first region nor a host operation writes it. -/
theorem v3_arg8 (c : Dev nD) : V3 m ρ c main_arg8 = m ((c.tc : Thread nD τ).loc main_arg8) := by
  show StableHlo.after hostOps1 (W2 m ρ c) (Proc.devRef .tc main_arg8) = _
  after_results
  rw [W2_of_ne m ρ c main_arg8 (by decide)]
  exact w1_arg8 m ρ c

/-- The second region finds argument 9 as launched: neither the first region nor a host operation writes it. -/
theorem v3_arg9 (c : Dev nD) : V3 m ρ c main_arg9 = m ((c.tc : Thread nD τ).loc main_arg9) := by
  show StableHlo.after hostOps1 (W2 m ρ c) (Proc.devRef .tc main_arg9) = _
  after_results
  rw [W2_of_ne m ρ c main_arg9 (by decide)]
  exact w1_arg9 m ρ c

/-- The second region finds the hidden features where the first region left them. -/
theorem v3_hidden (c : Dev nD) :
    V3 m ρ c main_v25 = Cert.Net.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v25) = _
  after_results
  exact w2_hidden m ρ c

set_option maxHeartbeats 4000000 in
/-- The neighbour mean of the hidden features: the second stretch's operations over the edge rows and degrees the
    first stretch computed and the first region's output. -/
theorem v3_agg (c : Dev nD) :
    V3 m ρ c main_v38 = Cert.Net.agg128 (W2 m ρ c (Proc.devRef .tc main_v25)) (m ((c.tc : Thread nD τ).loc main_arg1)) := by
  show StableHlo.after hostOps1 (W2 m ρ c) (Proc.devRef .tc main_v38) = _
  generalize hh : W2 m ρ c (Proc.devRef .tc main_v25) = h25
  unfold Cert.Net.agg128
  after_results_simp
  rw [hh, W2_of_ne m ρ c main_v1 (by decide), W2_of_ne m ρ c main_v3 (by decide), W2_of_ne m ρ c main_v11 (by decide),
    w1_src m ρ c, w1_dst m ρ c, w1_deg m ρ c]
  rfl

/-! ## After the second region -/

/-- THE RESULT: the last boundary's contents at the result buffer are the network of the arguments. -/
theorem value (c : Dev nD) :
    W4 m ρ c (Proc.devRef .tc main_v39) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show W4 m ρ c (Proc.devRef .tc main_v39) = (dat1 (V3 m ρ) c).arrAt 7 cfg1.N from W4_arr m ρ c 7,
    Cert.KernelIdeal.Region1.final (V3 m ρ) c]
  unfold Cert.KernelIdeal.Region1.G Cert.Net.net
  rw [v3_agg m ρ c, v3_hidden m ρ c, v3_arg5 m ρ c, v3_arg6 m ρ c, v3_arg7 m ρ c, v3_arg8 m ρ c, v3_arg9 m ρ c,
    w2_hidden m ρ c]

/-- The kernel program's run with its result named by the network: every weakly fair execution terminates, the result
    buffer at the network of the arguments, the arguments unchanged. -/
theorem run : θ_run defs (onTc (τ := τ) (main (F := Ideal))) ⟨m, fun _ => 0, ρ⟩ fun r => ∀ c : Dev nD,
      r.2.mem ((c.tc : Thread nD τ).loc main_v39) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (value m ρ c), (h c).2⟩) (Cert.KernelIdeal.Named.run_named m ρ)

end Cert.KernelIdeal.KValue

end
-- ==== Proof.RefValue.lean ====
/-
  The reference program's result is the network of its arguments.

  The reference's run ends with its result buffer at the composed term of its host operations. Read from the outside
  in, that term is the head applied to the second layer applied to the neighbour mean of the first layer: each layer
  and the head in the whole-array spelling (transposed weights, bias before the second product), the neighbour means
  in the very operations the network's definition carries. So the term is the network, by the layer's and the head's
  whole-array reading and nothing else.
-/
import proofs.«121662_j40089224741075_1_alg».proof.Proof.Gen.ReferenceIdeal.Run
import proofs.«121662_j40089224741075_1_alg».proof.Proof.Net

noncomputable section

namespace Cert.ReferenceIdeal.RefValue

open Cert.ReferenceIdeal Cert.ReferenceIdeal.Gen Cert.ReferenceIdeal.Value
open Idealize.ShloMosaic Idealize.ShloMosaic.TcCoe Idealize.SL.Sem

set_option maxRecDepth 8192 in
/-- The run's composed term is the network of the arguments' launch contents. -/
theorem res_eq (m : (ℓ : Loc nD τ sig) → Buf (Elt Ideal) ℓ) (c : Dev nD) :
    res_main_v60 (F := Ideal) m c = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.Net.net Cert.Net.hidden
  rw [← Cert.Sage.wholeHead_eq dot_S50000x128_S128x2_S50000x2_1_0_0_1_n_n rfl rfl rfl rfl rfl rfl
        transposes_S2x128_S128x2_1_0 bcast_S2_S1x2_1 bcast_S1x2_S50000x2_0_1,
      ← Cert.Sage.wholeLayer_eq dot_S50000x128_S128x128_S50000x128_1_0_0_1_n_n rfl rfl rfl rfl rfl rfl
        transposes_S128x128_S128x128_1_0 bcast_S128_S1x128_1 bcast_S1x128_S50000x128_0_1 bcast_S_S50000x128,
      ← Cert.Sage.wholeLayer_eq dot_S50000x64_S64x128_S50000x128_1_0_0_1_n_n rfl rfl rfl rfl rfl rfl
        transposes_S128x64_S64x128_1_0 bcast_S128_S1x128_1 bcast_S1x128_S50000x128_0_1 bcast_S_S50000x128]
  unfold res_main_v60 Cert.Net.agg128 Cert.Net.agg64 Cert.Net.degInv Cert.Net.srcRow Cert.Net.dstRow
  rfl

/-- The reference's run with its result named by the network: every weakly fair execution terminates, the result
    buffer at the network of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_eq m c), (h c).2⟩) (Cert.ReferenceIdeal.Value.run (F := Ideal) m ρ)

end Cert.ReferenceIdeal.RefValue

end
-- ==== Proof.lean ====
/-
  A two-layer GraphSAGE network with a linear head, computed two ways, is one function of its arguments on the
  extended reals.

  Both programs take node features `x` (50000 × 64), an edge list (2 × 800000: source and destination node of every
  edge), the weights and bias of two SAGE layers and of a two-class head. Both first compute, with the very same
  array operations, every node's reciprocal in-degree and the mean of `x` over its in-neighbours. A layer is then
  `h = max (mean · Wlᵀ + bl + x · Wrᵀ, 0)`; the second layer takes the neighbour mean of `h` and `h` itself; the
  head is `h' · Wfcᵀ + bfc`.

  The reference evaluates each layer on whole arrays: it transposes the weights, multiplies, and adds the bias to the
  first product before the second. The kernel program evaluates each layer in ten blocks of 5000 rows, multiplying by
  the weights as stored (contracting the last axis of both operands) after narrowing the operands to bf16, adds the
  two products first and the bias last, and fuses the head into the second layer's blocks. At the extended reals a
  change of float format is the identity and a block product into a zero accumulator is the exact sum of products, so
  the two differ only in the order of a three-term sum; addition of extended reals is commutative and associative,
  infinities included, so no finiteness of the inputs is used. A layer's entry depends on one row of its feature
  matrices, so the layer of a row block is the row block of the layer, and the ten row blocks cover all 50000 rows.

  The modules: `SageSpec` (a layer and the head entry by entry, and that both spellings are it), `Net` (the network,
  with the shared neighbour-mean operations carried unopened), `Region0` / `Region1` (each kernel region's output
  array as the layer, resp. the head of the layer, of the arrays it is entered with), `KernelRun` (the kernel program's
  run with its result buffer named), `KernelValue` (the buffer contents followed from launch to return: the result is
  the network), `RefValue` (the reference's composed term is the network).
-/
import proofs.«121662_j40089224741075_1_alg».proof.Defs
import proofs.«121662_j40089224741075_1_alg».proof.Proof.Gen.Kernel
import proofs.«121662_j40089224741075_1_alg».proof.Proof.Gen.Kernel.Frame
import proofs.«121662_j40089224741075_1_alg».proof.Proof.Gen.KernelIdeal
import proofs.«121662_j40089224741075_1_alg».proof.Proof.Gen.KernelIdeal.Frame
import proofs.«121662_j40089224741075_1_alg».proof.Proof.Gen.ReferenceIdeal
import proofs.«121662_j40089224741075_1_alg».proof.Proof.Gen.Pre_finite_inputs
import proofs.«121662_j40089224741075_1_alg».proof.Proof.KernelValue
import proofs.«121662_j40089224741075_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the network of those arguments in their
    result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
